-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x128 : Shape := ⟨2, ![2000, 128]⟩
abbrev S2000x16 : Shape := ⟨2, ![2000, 16]⟩
abbrev S3300000x16 : Shape := ⟨2, ![3300000, 16]⟩
abbrev S1x16 : Shape := ⟨2, ![1, 16]⟩
abbrev S100000x2 : Shape := ⟨2, ![100000, 2]⟩
abbrev S2000x2 : Shape := ⟨2, ![2000, 2]⟩
abbrev S3300000x2 : Shape := ⟨2, ![3300000, 2]⟩
abbrev S1x2 : Shape := ⟨2, ![1, 2]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x2, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x2, .f32⟩
  | .hbm, ⟨75, _⟩ => ⟨S3300000x1, .f32⟩
  | .hbm, ⟨76, _⟩ => ⟨S3300000x2, .f32⟩
  | .hbm, ⟨77, _⟩ => ⟨S3300000x2, .f32⟩
  | .hbm, ⟨78, _⟩ => ⟨S_, .f32⟩
  | .hbm, ⟨79, _⟩ => ⟨S100000x2, .f32⟩
  | .hbm, ⟨80, _⟩ => ⟨S3300000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S128x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x2, .f32⟩
  | .local _ .vmem, ⟨13, _⟩ => ⟨S2000x2, .f32⟩
  | .local _ .vmem, ⟨14, _⟩ => ⟨S2000x2, .f32⟩
  | .local _ .vmem, ⟨15, _⟩ => ⟨S2000x2, .f32⟩
  | .local _ .vmem, ⟨16, _⟩ => ⟨S2000x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x2_S16x2_0_0 : ∀ a, (![0, 0] : Fin 2 → Nat) a + S16x2.size a ≤ S16x2.size a
  h_S16x2 : 0 < S16x2.numel
  inb_S2000x2_S2000x2_0_0 : ∀ a, (![0, 0] : Fin 2 → Nat) a + S2000x2.size a ≤ S2000x2.size a
  h_S2000x2 : 0 < S2000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x128_S128x16_S2000x16_1_0_0_1_n_n_wf : DotDims.WF S2000x128 S128x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x2_S2000x2_1_0_0_1_n_n_wf : DotDims.WF S2000x16 S16x2 S2000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S100000x2.size a
  hwx2_2 : ∀ i : grid2.Coords, EltTy.bits .f32 = 32 ∨ (Rect.block (s := S100000x2) S2000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S100000x2.size a
  hwx3_0 : ∀ i : grid3.Coords, EltTy.bits .f32 = 32 ∨ (Rect.block (s := S100000x2) S2000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S100000x2.size a
  hwx3_2 : ∀ i : grid3.Coords, EltTy.bits .f32 = 32 ∨ (Rect.block (s := S100000x2) S2000x2.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x2_S2000x2_1_0_0_1_n_n : DotDims S2000x16 S16x2 S2000x2 where
  lhsContracting := [1]
  rhsContracting := [0]
  lhsNonContracting := [0]
  rhsNonContracting := [1]
  lhsBatch := []
  rhsBatch := []
  wf := dot_S2000x16_S16x2_S2000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x2, .f32⟩
  | 5 => ⟨S2, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x2, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x2, .f32⟩
  | 112 => ⟨S3300000x1, .f32⟩
  | 113 => ⟨S3300000x2, .f32⟩
  | 114 => ⟨S3300000x2, .f32⟩
  | 115 => ⟨S_, .f32⟩
  | 116 => ⟨S100000x2, .f32⟩
  | 117 => ⟨S3300000x1, .i32⟩
  | 118 => ⟨S100000x2, .f32⟩
  | 119 => ⟨S1x2, .f32⟩
  | 120 => ⟨S100000x2, .f32⟩
  | 121 => ⟨S100000x2, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x2, .f32⟩
  | 1 => ⟨S100000x2, .f32⟩
  | 2 => ⟨S100000x2, .f32⟩
  | 3 => ⟨S_, .f32⟩
  | 4 => ⟨S100000, .f32⟩
  | 5 => ⟨S100000x1, .f32⟩
  | 6 => ⟨S100000x1, .f32⟩
  | 7 => ⟨S100000x2, .f32⟩
  | 8 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.RefChain.lean ====
/-
  The graph side of a two-layer graph convolution, as the reference spells it: from the 2 × 3200000 edge list, the source
  and target node of every edge with the 100000 self loops appended (`srcOf`, `dstOf`); a node index made non-negative
  by adding the node count to a negative one (`wrap`); a node's in-degree, self loop included, as a scatter-add of ones
  at the targets (`deg`); its inverse square root where the degree is positive and zero elsewhere (`dinv`); an edge's
  weight, the product of that at its two ends (`norm`); and one round of message passing on an array of node features:
  gather the source's row, scale it by the edge's weight, scatter-add it at the target (`agg16` for 16 features, `agg2`
  for 2). Then the three dense pieces around them in the reference's own operations: a bias vector laid along every row
  (`bias16`, `bias2`), the maximum with a zero array (`relu0`), and the row-wise log-softmax in its shifted form
  (`lsm`, with the row maximum, taken from −∞ twice, broadcast back along the row: `rowMaxB`). `whole` is their
  composition: the reference's result as one function of its six arguments, at any float family.
-/
import proofs.«139802_j73220602462645_1_alg».proof.Proof.Gen.ReferenceIdeal

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Every edge's source node, then the nodes themselves (the self loops). -/
def srcOf (E : (⟨S2x3200000, .i32⟩ : BufTy).Contents (Elt F)) : (⟨S3300000, .i32⟩ : BufTy).Contents (Elt F) :=
  concatenate S3300000 0 [⟨S3200000, (shapeCast _ (extractStridedSlice S1x3200000 ![0, 0] E slices_S2x3200000_S1x3200000_0_0) shapeCasts_S1x3200000_S3200000)⟩, ⟨S100000, (iotaInDim S100000 32 0)⟩] concatenates_S3200000_S100000_S3300000_d0

/-- Every edge's target node, then the nodes themselves. -/
def dstOf (E : (⟨S2x3200000, .i32⟩ : BufTy).Contents (Elt F)) : (⟨S3300000, .i32⟩ : BufTy).Contents (Elt F) :=
  concatenate S3300000 0 [⟨S3200000, (shapeCast _ (extractStridedSlice S1x3200000 ![1, 0] E slices_S2x3200000_S1x3200000_1_0) shapeCasts_S1x3200000_S3200000)⟩, ⟨S100000, (iotaInDim S100000 32 0)⟩] concatenates_S3200000_S100000_S3300000_d0

/-- A negative node index counted from the end. -/
def wrap (x : (⟨S3300000, .i32⟩ : BufTy).Contents (Elt F)) : (⟨S3300000, .i32⟩ : BufTy).Contents (Elt F) :=
  select (cmpi .slt x (broadcastInDim S3300000 ![] bcast_S_S3300000 (constantI S_ 32 0#32))) (addi x (broadcastInDim S3300000 ![] bcast_S_S3300000 (constantI S_ 32 100000#32))) x

/-- A node's in-degree: one added at the target of every edge. -/
def deg (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- The inverse square root of the degree where it is positive, zero elsewhere. -/
def dinv (d : (⟨S3300000, .i32⟩ : BufTy).Contents (Elt F)) : (⟨S100000, .f32⟩ : BufTy).Contents (Elt F) :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

/-- An edge's weight: the product of `dinv` at its source and at its target. -/
def norm (s d : (⟨S3300000, .i32⟩ : BufTy).Contents (Elt F)) : (⟨S3300000, .f32⟩ : BufTy).Contents (Elt F) :=
  mulf (Host.gather gather_S100000_S3300000x1_S3300000_n_0_n_n_0_1_1 (dinv (F := F) d) (broadcastInDim S3300000x1 ![0] bcast_S3300000_S3300000x1_0 (wrap s))) (Host.gather gather_S100000_S3300000x1_S3300000_n_0_n_n_0_1_1 (dinv (F := F) d) (broadcastInDim S3300000x1 ![0] bcast_S3300000_S3300000x1_0 (wrap d)))

/-- One round of message passing on 16 features a node. -/
def agg16 (s d : (⟨S3300000, .i32⟩ : BufTy).Contents (Elt F)) (n : (⟨S3300000, .f32⟩ : BufTy).Contents (Elt F)) (H : (⟨S100000x16, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 H (broadcastInDim S3300000x1 ![0] bcast_S3300000_S3300000x1_0 (wrap s))) (broadcastInDim S3300000x16 ![0, 1] bcast_S3300000x1_S3300000x16_0_1 (broadcastInDim S3300000x1 ![0] bcast_S3300000_S3300000x1_0 n)))

/-- One round of message passing on 2 features a node. -/
def agg2 (s d : (⟨S3300000, .i32⟩ : BufTy).Contents (Elt F)) (n : (⟨S3300000, .f32⟩ : BufTy).Contents (Elt F)) (H : (⟨S100000x2, .f32⟩ : BufTy).Contents (Elt F)) : (⟨S100000x2, .f32⟩ : BufTy).Contents (Elt F) :=
  Host.scatterAdd scatter_S100000x2_S3300000x1_S3300000x2_1_0_0_1 (broadcastInDim S100000x2 ![] bcast_S_S100000x2 (constant S_ .f32 0x00000000#32)) (broadcastInDim S3300000x1 ![0] bcast_S3300000_S3300000x1_0 d) (mulf (Host.gather gather_S100000x2_S3300000x1_S3300000x2_1_0_n_n_0_1_12 H (broadcastInDim S3300000x1 ![0] bcast_S3300000_S3300000x1_0 (wrap s))) (broadcastInDim S3300000x2 ![0, 1] bcast_S3300000x1_S3300000x2_0_1 (broadcastInDim S3300000x1 ![0] bcast_S3300000_S3300000x1_0 n)))

/-- A 16-vector laid along every row. -/
def bias16 (b : (⟨S16, .f32⟩ : BufTy).Contents (Elt F)) : (⟨S100000x16, .f32⟩ : BufTy).Contents (Elt F) :=
  broadcastInDim S100000x16 ![0, 1] bcast_S1x16_S100000x16_0_1 (broadcastInDim S1x16 ![1] bcast_S16_S1x16_1 b)

/-- A 2-vector laid along every row. -/
def bias2 (b : (⟨S2, .f32⟩ : BufTy).Contents (Elt F)) : (⟨S100000x2, .f32⟩ : BufTy).Contents (Elt F) :=
  broadcastInDim S100000x2 ![0, 1] bcast_S1x2_S100000x2_0_1 (broadcastInDim S1x2 ![1] bcast_S2_S1x2_1 b)

/-- The maximum with the zero array. -/
def relu0 (A : (⟨S100000x16, .f32⟩ : BufTy).Contents (Elt F)) : (⟨S100000x16, .f32⟩ : BufTy).Contents (Elt F) :=
  maximumf A (broadcastInDim S100000x16 ![] bcast_S_S100000x16 (constant S_ .f32 0x00000000#32))

/-- Each row's maximum (from −∞, and once more against −∞), broadcast back along the row. -/
def rowMaxB (A : (⟨S100000x2, .f32⟩ : BufTy).Contents (Elt F)) : (⟨S100000x2, .f32⟩ : BufTy).Contents (Elt F) :=
  broadcastInDim S100000x2 ![0, 1] bcast_S100000x1_S100000x2_0_1 (broadcastInDim S100000x1 ![0] bcast_S100000_S100000x1_0 (maximumf (broadcastInDim S100000 ![] bcast_S_S100000 (constant S_ .f32 0xFF800000#32)) (Host.reduce FloatOps.maximumf A (constant S_ .f32 0xFF800000#32) reducesTo_S100000x2_S100000_d1 h_S_)))

/-- The row-wise log-softmax in its shifted form. -/
def lsm (A : (⟨S100000x2, .f32⟩ : BufTy).Contents (Elt F)) : (⟨S100000x2, .f32⟩ : BufTy).Contents (Elt F) :=
  subf (subf A (rowMaxB A)) (broadcastInDim S100000x2 ![0, 1] bcast_S100000x1_S100000x2_0_1 (Host.log (broadcastInDim S100000x1 ![0] bcast_S100000_S100000x1_0 (Host.reduceAdd (Host.exp (subf A (rowMaxB A))) (constant S_ .f32 0x00000000#32) reducesTo_S100000x2_S100000_d1 h_S_))))

/-- The two layers: features through a dense layer, a round of message passing, bias and the maximum with zero; then
    again with the log-softmax in place of the maximum. -/
def whole (x : (⟨S100000x128, .f32⟩ : BufTy).Contents (Elt F)) (E : (⟨S2x3200000, .i32⟩ : BufTy).Contents (Elt F)) (W1 : (⟨S128x16, .f32⟩ : BufTy).Contents (Elt F)) (b1 : (⟨S16, .f32⟩ : BufTy).Contents (Elt F))
    (W2 : (⟨S16x2, .f32⟩ : BufTy).Contents (Elt F)) (b2 : (⟨S2, .f32⟩ : BufTy).Contents (Elt F)) : (⟨S100000x2, .f32⟩ : BufTy).Contents (Elt F) :=
  lsm (addf (agg2 (srcOf E) (dstOf E) (norm (F := F) (srcOf E) (dstOf E))
      (Host.dotGeneral dot_S100000x16_S16x2_S100000x2_1_0_0_1_n_n none
        (relu0 (addf (agg16 (srcOf E) (dstOf E) (norm (F := F) (srcOf E) (dstOf E))
          (Host.dotGeneral dot_S100000x128_S128x16_S100000x16_1_0_0_1_n_n none x W1)) (bias16 b1))) W2)) (bias2 b2))

end Cert.ReferenceIdeal.Chain

end
-- ==== Proof.KChain.lean ====
/-
  The kernel's buffers at the boundaries between its host stretches and its four regions, at any float family.

  Before region 0 the host computes, from the edge list, the edges' sources and targets with the self loops appended and
  the edges' weights (buffers `main_v3`, `main_v6`, `main_v29`): they are the reference's `srcOf`, `dstOf` and
  `norm` of the edge list. No region and no later host operation writes them, nor the argument arrays, so each keeps
  those contents to the boundary where it is read. After region 0 the host gathers, scales and scatter-adds region 0's
  output (`main_v30`) into `main_v43` — one round of message passing, the reference's `agg16` — and lays the first bias
  out as one row (`main_v44`); after region 2 the same on region 2's output (`main_v46`) into `main_v59` (`agg2`), and
  the second bias as one row (`main_v60`).
-/
import proofs.«139802_j73220602462645_1_alg».proof.Proof.Gen.KernelIdeal.Frame
import proofs.«139802_j73220602462645_1_alg».proof.Proof.RefChain
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0's entry: what the first three host stretches leave -/

set_option maxHeartbeats 4000000 in
/-- The sources, self loops appended. -/
theorem src3 (c : Dev nD) : W3 m ρ c (Proc.devRef .tc main_v3) = (Cert.ReferenceIdeal.Chain.srcOf (m ((c : Thread nD τ).loc main_arg1))) := by
  show StableHlo.after hostOps0_2 (StableHlo.after hostOps0_1 (StableHlo.after hostOps0 (W0 m ρ c))) (Proc.devRef .tc main_v3) = _
  after_results_simp <;> rfl

set_option maxHeartbeats 4000000 in
/-- The targets, self loops appended. -/
theorem dst3 (c : Dev nD) : W3 m ρ c (Proc.devRef .tc main_v6) = (Cert.ReferenceIdeal.Chain.dstOf (m ((c : Thread nD τ).loc main_arg1))) := by
  show StableHlo.after hostOps0_2 (StableHlo.after hostOps0_1 (StableHlo.after hostOps0 (W0 m ρ c))) (Proc.devRef .tc main_v6) = _
  after_results_simp <;> rfl

set_option maxHeartbeats 4000000 in
/-- The edges' weights. -/
theorem nrm3 (c : Dev nD) : W3 m ρ c (Proc.devRef .tc main_v29) = (Cert.ReferenceIdeal.Chain.norm (F := F) (Cert.ReferenceIdeal.Chain.srcOf (m ((c : Thread nD τ).loc main_arg1))) (Cert.ReferenceIdeal.Chain.dstOf (m ((c : Thread nD τ).loc main_arg1)))) := by
  show StableHlo.after hostOps0_2 (StableHlo.after hostOps0_1 (StableHlo.after hostOps0 (W0 m ρ c))) (Proc.devRef .tc main_v29) = _
  after_results_simp <;> rfl

set_option maxHeartbeats 4000000 in
/-- Argument 0 is as launched. -/
theorem arg0_3 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

set_option maxHeartbeats 4000000 in
/-- Argument 2 is as launched. -/
theorem arg2_3 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

set_option maxHeartbeats 4000000 in
/-- Argument 3 is as launched. -/
theorem arg3_3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

set_option maxHeartbeats 4000000 in
/-- Argument 4 is as launched. -/
theorem arg4_3 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

set_option maxHeartbeats 4000000 in
/-- Argument 5 is as launched. -/
theorem arg5_3 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## Region 0's exit: only its output array changes -/

theorem src4 (c : Dev nD) : W4 m ρ c (Proc.devRef .tc main_v3) = (Cert.ReferenceIdeal.Chain.srcOf (m ((c : Thread nD τ).loc main_arg1))) :=
  (W4_of_ne m ρ c main_v3 (by decide)).trans (src3 m ρ c)
theorem dst4 (c : Dev nD) : W4 m ρ c (Proc.devRef .tc main_v6) = (Cert.ReferenceIdeal.Chain.dstOf (m ((c : Thread nD τ).loc main_arg1))) :=
  (W4_of_ne m ρ c main_v6 (by decide)).trans (dst3 m ρ c)
theorem nrm4 (c : Dev nD) : W4 m ρ c (Proc.devRef .tc main_v29) = (Cert.ReferenceIdeal.Chain.norm (F := F) (Cert.ReferenceIdeal.Chain.srcOf (m ((c : Thread nD τ).loc main_arg1))) (Cert.ReferenceIdeal.Chain.dstOf (m ((c : Thread nD τ).loc main_arg1)))) :=
  (W4_of_ne m ρ c main_v29 (by decide)).trans (nrm3 m ρ c)
theorem arg3_4 (c : Dev nD) : W4 m ρ c (Proc.devRef .tc main_arg3) = (m ((c : Thread nD τ).loc main_arg3)) :=
  (W4_of_ne m ρ c main_arg3 (by decide)).trans (arg3_3 m ρ c)
theorem arg4_4 (c : Dev nD) : W4 m ρ c (Proc.devRef .tc main_arg4) = (m ((c : Thread nD τ).loc main_arg4)) :=
  (W4_of_ne m ρ c main_arg4 (by decide)).trans (arg4_3 m ρ c)
theorem arg5_4 (c : Dev nD) : W4 m ρ c (Proc.devRef .tc main_arg5) = (m ((c : Thread nD τ).loc main_arg5)) :=
  (W4_of_ne m ρ c main_arg5 (by decide)).trans (arg5_3 m ρ c)

/-! ## Region 1's entry: one round of message passing on region 0's output, and the first bias as one row -/

set_option maxHeartbeats 4000000 in
/-- `main_v43` is the message-passing round of the buffers it reads. -/
theorem agg5 (c : Dev nD) : W5 m ρ c (Proc.devRef .tc main_v43)
    = Cert.ReferenceIdeal.Chain.agg16 (W4 m ρ c (Proc.devRef .tc main_v3)) (W4 m ρ c (Proc.devRef .tc main_v6)) (W4 m ρ c (Proc.devRef .tc main_v29)) (W4 m ρ c (Proc.devRef .tc main_v30)) := by
  show StableHlo.after hostOps1 (W4 m ρ c) (Proc.devRef .tc main_v43) = _
  after_results_simp <;> rfl

set_option maxHeartbeats 4000000 in
/-- `main_v44` is the first bias as a one-row array. -/
theorem bias5 (c : Dev nD) : W5 m ρ c (Proc.devRef .tc main_v44) = shapeCast S1x16 (W4 m ρ c (Proc.devRef .tc main_arg3)) shapeCasts_S16_S1x16 := by
  show StableHlo.after hostOps1 (W4 m ρ c) (Proc.devRef .tc main_v44) = _
  after_results_simp <;> rfl

set_option maxHeartbeats 4000000 in
/-- The second host stretch does not write this buffer. -/
theorem src_keep5 (c : Dev nD) : W5 m ρ c (Proc.devRef .tc main_v3) = W4 m ρ c (Proc.devRef .tc main_v3) := by
  show StableHlo.after hostOps1 (W4 m ρ c) (Proc.devRef .tc main_v3) = _
  after_results_simp <;> rfl

set_option maxHeartbeats 4000000 in
/-- The second host stretch does not write this buffer. -/
theorem dst_keep5 (c : Dev nD) : W5 m ρ c (Proc.devRef .tc main_v6) = W4 m ρ c (Proc.devRef .tc main_v6) := by
  show StableHlo.after hostOps1 (W4 m ρ c) (Proc.devRef .tc main_v6) = _
  after_results_simp <;> rfl

set_option maxHeartbeats 4000000 in
/-- The second host stretch does not write this buffer. -/
theorem nrm_keep5 (c : Dev nD) : W5 m ρ c (Proc.devRef .tc main_v29) = W4 m ρ c (Proc.devRef .tc main_v29) := by
  show StableHlo.after hostOps1 (W4 m ρ c) (Proc.devRef .tc main_v29) = _
  after_results_simp <;> rfl

set_option maxHeartbeats 4000000 in
/-- The second host stretch does not write this buffer. -/
theorem arg4_keep5 (c : Dev nD) : W5 m ρ c (Proc.devRef .tc main_arg4) = W4 m ρ c (Proc.devRef .tc main_arg4) := by
  show StableHlo.after hostOps1 (W4 m ρ c) (Proc.devRef .tc main_arg4) = _
  after_results_simp <;> rfl

set_option maxHeartbeats 4000000 in
/-- The second host stretch does not write this buffer. -/
theorem arg5_keep5 (c : Dev nD) : W5 m ρ c (Proc.devRef .tc main_arg5) = W4 m ρ c (Proc.devRef .tc main_arg5) := by
  show StableHlo.after hostOps1 (W4 m ρ c) (Proc.devRef .tc main_arg5) = _
  after_results_simp <;> rfl

theorem src5 (c : Dev nD) : W5 m ρ c (Proc.devRef .tc main_v3) = (Cert.ReferenceIdeal.Chain.srcOf (m ((c : Thread nD τ).loc main_arg1))) := (src_keep5 m ρ c).trans (src4 m ρ c)
theorem dst5 (c : Dev nD) : W5 m ρ c (Proc.devRef .tc main_v6) = (Cert.ReferenceIdeal.Chain.dstOf (m ((c : Thread nD τ).loc main_arg1))) := (dst_keep5 m ρ c).trans (dst4 m ρ c)
theorem nrm5 (c : Dev nD) : W5 m ρ c (Proc.devRef .tc main_v29) = (Cert.ReferenceIdeal.Chain.norm (F := F) (Cert.ReferenceIdeal.Chain.srcOf (m ((c : Thread nD τ).loc main_arg1))) (Cert.ReferenceIdeal.Chain.dstOf (m ((c : Thread nD τ).loc main_arg1)))) := (nrm_keep5 m ρ c).trans (nrm4 m ρ c)
theorem arg4_5 (c : Dev nD) : W5 m ρ c (Proc.devRef .tc main_arg4) = (m ((c : Thread nD τ).loc main_arg4)) := (arg4_keep5 m ρ c).trans (arg4_4 m ρ c)
theorem arg5_5 (c : Dev nD) : W5 m ρ c (Proc.devRef .tc main_arg5) = (m ((c : Thread nD τ).loc main_arg5)) := (arg5_keep5 m ρ c).trans (arg5_4 m ρ c)

/-! ## Region 1's and region 2's exits -/

theorem src6 (c : Dev nD) : W6 m ρ c (Proc.devRef .tc main_v3) = (Cert.ReferenceIdeal.Chain.srcOf (m ((c : Thread nD τ).loc main_arg1))) :=
  (W6_of_ne m ρ c main_v3 (by decide)).trans (src5 m ρ c)
theorem dst6 (c : Dev nD) : W6 m ρ c (Proc.devRef .tc main_v6) = (Cert.ReferenceIdeal.Chain.dstOf (m ((c : Thread nD τ).loc main_arg1))) :=
  (W6_of_ne m ρ c main_v6 (by decide)).trans (dst5 m ρ c)
theorem nrm6 (c : Dev nD) : W6 m ρ c (Proc.devRef .tc main_v29) = (Cert.ReferenceIdeal.Chain.norm (F := F) (Cert.ReferenceIdeal.Chain.srcOf (m ((c : Thread nD τ).loc main_arg1))) (Cert.ReferenceIdeal.Chain.dstOf (m ((c : Thread nD τ).loc main_arg1)))) :=
  (W6_of_ne m ρ c main_v29 (by decide)).trans (nrm5 m ρ c)
theorem arg4_6 (c : Dev nD) : W6 m ρ c (Proc.devRef .tc main_arg4) = (m ((c : Thread nD τ).loc main_arg4)) :=
  (W6_of_ne m ρ c main_arg4 (by decide)).trans (arg4_5 m ρ c)
theorem arg5_6 (c : Dev nD) : W6 m ρ c (Proc.devRef .tc main_arg5) = (m ((c : Thread nD τ).loc main_arg5)) :=
  (W6_of_ne m ρ c main_arg5 (by decide)).trans (arg5_5 m ρ c)
theorem src7 (c : Dev nD) : W7 m ρ c (Proc.devRef .tc main_v3) = (Cert.ReferenceIdeal.Chain.srcOf (m ((c : Thread nD τ).loc main_arg1))) :=
  (W7_of_ne m ρ c main_v3 (by decide)).trans (src6 m ρ c)
theorem dst7 (c : Dev nD) : W7 m ρ c (Proc.devRef .tc main_v6) = (Cert.ReferenceIdeal.Chain.dstOf (m ((c : Thread nD τ).loc main_arg1))) :=
  (W7_of_ne m ρ c main_v6 (by decide)).trans (dst6 m ρ c)
theorem nrm7 (c : Dev nD) : W7 m ρ c (Proc.devRef .tc main_v29) = (Cert.ReferenceIdeal.Chain.norm (F := F) (Cert.ReferenceIdeal.Chain.srcOf (m ((c : Thread nD τ).loc main_arg1))) (Cert.ReferenceIdeal.Chain.dstOf (m ((c : Thread nD τ).loc main_arg1)))) :=
  (W7_of_ne m ρ c main_v29 (by decide)).trans (nrm6 m ρ c)
theorem arg5_7 (c : Dev nD) : W7 m ρ c (Proc.devRef .tc main_arg5) = (m ((c : Thread nD τ).loc main_arg5)) :=
  (W7_of_ne m ρ c main_arg5 (by decide)).trans (arg5_6 m ρ c)

/-! ## Region 3's entry: one round of message passing on region 2's output, and the second bias as one row -/

set_option maxHeartbeats 4000000 in
/-- `main_v59` is the message-passing round of the buffers it reads. -/
theorem agg8 (c : Dev nD) : W8 m ρ c (Proc.devRef .tc main_v59)
    = Cert.ReferenceIdeal.Chain.agg2 (W7 m ρ c (Proc.devRef .tc main_v3)) (W7 m ρ c (Proc.devRef .tc main_v6)) (W7 m ρ c (Proc.devRef .tc main_v29)) (W7 m ρ c (Proc.devRef .tc main_v46)) := by
  show StableHlo.after hostOps3 (W7 m ρ c) (Proc.devRef .tc main_v59) = _
  after_results_simp <;> rfl

set_option maxHeartbeats 4000000 in
/-- `main_v60` is the second bias as a one-row array. -/
theorem bias8 (c : Dev nD) : W8 m ρ c (Proc.devRef .tc main_v60) = shapeCast S1x2 (W7 m ρ c (Proc.devRef .tc main_arg5)) shapeCasts_S2_S1x2 := by
  show StableHlo.after hostOps3 (W7 m ρ c) (Proc.devRef .tc main_v60) = _
  after_results_simp <;> rfl

end Cert.KernelIdeal.KChain

end
-- ==== Proof.Spec.lean ====
/-
  The layer functions of a two-layer graph convolution, as whole-array functions on the extended reals.

  * `dense M K N X W`: the matrix product, entry (p, q) = Σ_k X (p, k) · W (k, q).
  * `biasRelu M N A b`: entry (p, q) = max (A (p, q) + b (0, q)) 0, the bias being one row laid along every row.
  * `biasLogSoftmax M N A b`: with v (p, q) = A (p, q) + b (0, q) and mx p the maximum of row p of v (taken from −∞),
    entry (p, q) = (v (p, q) − mx p) − log Σ_q' exp (v (p, q') − mx p): the row-wise log-softmax in its shifted form.

  No rounding and no order of summation is left in any of them.
-/
import Idealize.ShloMosaic.PureOps.Ideal.Laws
import Idealize.ShloMosaic.Lib.ValueIdx

noncomputable section

namespace Cert.GcnSpec

open Idealize.ShloMosaic Idealize.ShloMosaic.ValueIdx

/-- The matrix product of an M×K and a K×N array. -/
def dense (M K N : Nat) (X : FVec Ideal ⟨2, ![M, K]⟩ .f32) (W : FVec Ideal ⟨2, ![K, N]⟩ .f32) :
    FVec Ideal ⟨2, ![M, N]⟩ .f32 :=
  fun i => ∑ k : Fin K, X (ix2 (i 0 : Fin M) k) * W (ix2 k (i 1 : Fin N))

/-- A one-row bias added to every row, then the maximum with zero. -/
def biasRelu (M N : Nat) (A : FVec Ideal ⟨2, ![M, N]⟩ .f32) (b : FVec Ideal ⟨2, ![1, N]⟩ .f32) :
    FVec Ideal ⟨2, ![M, N]⟩ .f32 :=
  fun i => max (A i + b (ix2 (0 : Fin 1) (i 1 : Fin N))) (Ideal.ofBits .f32 0x00000000#32)

/-- Row p of `A` with the one-row bias added: the values the log-softmax of row p is taken over. -/
def biased (M N : Nat) (A : FVec Ideal ⟨2, ![M, N]⟩ .f32) (b : FVec Ideal ⟨2, ![1, N]⟩ .f32) (p : Fin M) (q : Fin N) : EReal :=
  A (ix2 p q) + b (ix2 (0 : Fin 1) q)

/-- The maximum of a row, taken from −∞. -/
def rowMax (N : Nat) (v : Fin N → EReal) : EReal :=
  (Finset.univ : Finset (Fin N)).fold max (Ideal.ofBits .f32 0xFF800000#32) v

/-- A one-row bias added to every row, then the row-wise log-softmax in its shifted form. -/
def biasLogSoftmax (M N : Nat) (A : FVec Ideal ⟨2, ![M, N]⟩ .f32) (b : FVec Ideal ⟨2, ![1, N]⟩ .f32) :
    FVec Ideal ⟨2, ![M, N]⟩ .f32 :=
  fun i =>
    (biased M N A b (i 0 : Fin M) (i 1 : Fin N) - rowMax N (biased M N A b (i 0 : Fin M)))
      - Ideal.log (∑ q : Fin N, Ideal.exp (biased M N A b (i 0 : Fin M) q - rowMax N (biased M N A b (i 0 : Fin M))))

end Cert.GcnSpec

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Region0.lean ====
import proofs.«139802_j73220602462645_1_alg».proof.Proof.Gen.KernelIdeal.Frame
import proofs.«139802_j73220602462645_1_alg».proof.Proof.Spec
import proofs.«139802_j73220602462645_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! # Region 0: the first dense layer, X · W₁, block of rows by block of rows -/

namespace Dense0

/-- The offset (0, 0) of a whole-block access, as the constant function. -/
theorem zeroOff0 : (![0, 0] : Fin 2 → Nat) = fun _ => 0 := funext fun a => by fin_cases a <;> rfl

/-- The dimension numbers of the 2000×128 by 128×16 product are the plain ones. -/
theorem dot0_eq_plain : dot_S2000x128_S128x16_S2000x16_1_0_0_1_n_n = DotDims.plain 2000 128 16 := rfl

/-- The body's payload at entry (p, q) of its block: Σ_k x (p, k) · w (k, q). The two changes of float format are
    the identity on the extended reals, and the product is accumulated into the zero array. -/
theorem pay0_apply (x : Vec Ideal S2000x128 .f32) (w : Vec Ideal S128x16 .f32) (p : Fin 2000) (q : Fin 16) :
    k0_pay1 (F := Ideal) x w (ix2 p q) = ∑ k : Fin 128, x (ix2 p k) * w (ix2 k q) := by
  unfold k0_pay1
  rw [dot0_eq_plain]
  exact PlainDot.matmul_zero_apply 2000 128 16 _ _ p q

/-- The index maps over the 50 grid points: the first operand's window and the output's window sit at
    block (t, 0), the second operand's window at block (0, 0). -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 50 points. -/
theorem grid0_N : cfg0.N = 50 := by decide

/-- What point t writes back is block t of X · W₁. -/
theorem flushed0_eq (c : Dev nD) (t : Fin cfg0.N) :
    (dat0 (F := Ideal) V c).flushed 2 t
      = ((cfg0.win 2).blk t).view.read (Elt Ideal) (Cert.GcnSpec.dense 100000 128 16 (V c main_arg0) (V c main_arg2)) := by
  show (cfg0.win 2).cut (grid0.coords t) ((dat0 V c).after 2 t) = _
  rw [after0_2]
  unfold out0_2
  rw [View.canon_unit_zero zeroOff0]
  simp only [View.ld_unit_zero (S := S2000x128) zeroOff0, View.ld_unit_zero (S := S128x16) zeroOff0]
  obtain ⟨e00, e01, e10, e11, e20, e21⟩ := idx0_facts t
  funext j
  obtain ⟨p, q, rfl⟩ : ∃ (p : Fin 2000) (q : Fin 16), j = ix2 p q := ⟨j 0, j 1, eq_ix2 j⟩
  show k0_pay1 (F := Ideal) (iblk0 V c 0 t) (iblk0 V c 1 t) (ix2 p q)
    = Cert.GcnSpec.dense 100000 128 16 (V c main_arg0) (V c main_arg2) (((cfg0.win 2).blk t).view.emb (ix2 p q))
  rw [pay0_apply]
  unfold Cert.GcnSpec.dense
  refine Finset.sum_congr rfl fun k _ => ?_
  refine congrArg₂ (fun a b : EReal => a * b) ?_ ?_
  · show V c main_arg0 (((cfg0.win 0).blk t).view.emb (ix2 p k)) = V c main_arg0 _
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_arg2 (((cfg0.win 1).blk t).view.emb (ix2 k q)) = V c main_arg2 _
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * q.val = win0_2.index t (1 : Fin 2) * 16 + 1 * q.val; omega

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- The 50 row blocks tile the 100000 rows: row r lies in the block of point r / 2000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hlt : (i 0).val / 2000 < cfg0.N := lt_of_lt_of_eq (by omega : (i 0).val / 2000 < 50) grid0_N.symm
  refine ⟨⟨(i 0).val / 2000, hlt⟩, flush0_2 _, ?_⟩
  obtain ⟨-, -, -, -, e20, e21⟩ := idx0_facts ⟨(i 0).val / 2000, hlt⟩
  have e20' : win0_2.index ⟨(i 0).val / 2000, hlt⟩ (0 : Fin 2) = (i 0).val / 2000 := e20
  rw [mem_blk0]
  intro a
  match a with
  | ⟨0, _⟩ => show win0_2.index _ (0 : Fin 2) * 2000 ≤ (i 0).val ∧ (i 0).val < win0_2.index _ (0 : Fin 2) * 2000 + 2000; omega
  | ⟨1, _⟩ => show win0_2.index _ (1 : Fin 2) * 16 ≤ (i 1).val ∧ (i 1).val < win0_2.index _ (1 : Fin 2) * 16 + 16; omega

end Dense0

/-- The output array of region 0 after its 50 points is X · W₁. -/
theorem final0 (c : Dev nD) :
    (dat0 (F := Ideal) V c).arrAt 2 cfg0.N = Cert.GcnSpec.dense 100000 128 16 (V c main_arg0) (V c main_arg2) :=
  (dat0 (F := Ideal) V c).arrAt_eq_of_cover 2 _ (fun t _ => Dense0.flushed0_eq V c t) Dense0.cover0

end Cert.KernelIdeal.RegionValue

end
-- ==== Proof.Region1.lean ====
import proofs.«139802_j73220602462645_1_alg».proof.Proof.Gen.KernelIdeal.Frame
import proofs.«139802_j73220602462645_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The origin of a rank-2 block, as the constant-zero offset. -/
theorem biasRelu_origin : (![0, 0] : Fin 2 → Nat) = fun _ => 0 := funext fun a => by fin_cases a <;> rfl

/-- The body's value at row p, column q of a block: the block's entry plus the bias row's entry in column q,
    then the maximum with zero (the bias row is laid along every one of the 2000 rows). -/
theorem biasRelu_pay (x0 : Vec Ideal S2000x16 .f32) (x1 : Vec Ideal S1x16 .f32) (p : Fin 2000) (q : Fin 16) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S2000x16 x1 _ (ix2 p q)) _ = _
  rw [broadcastTo_1b_ab_apply]
  rfl

/-- If the row block holds, at j, the array's entry at i, the bias block is the bias row, and j and i lie in the same
    column, then the body's value at j is the layer function at i. -/
theorem biasRelu_at (A : FVec Ideal ⟨2, ![100000, 16]⟩ .f32) (b : FVec Ideal ⟨2, ![1, 16]⟩ .f32)
    (x0 : Vec Ideal S2000x16 .f32) (x1 : Vec Ideal S1x16 .f32) (j : S2000x16.Idx) (i : S100000x16.Idx)
    (h0 : x0 j = A i) (h1 : ∀ q : Fin 16, x1 (ix2 (0 : Fin 1) q) = b (ix2 (0 : Fin 1) q)) (hq : (i 1).val = (j 1).val) :
    k1_pay1 (F := Ideal) x0 x1 j = Cert.GcnSpec.biasRelu 100000 16 A b i := by
  obtain ⟨p, q, rfl⟩ : ∃ (p : Fin 2000) (q : Fin 16), j = ix2 p q := ⟨j 0, j 1, eq_ix2 j⟩
  rw [biasRelu_pay, h0, h1]
  unfold Cert.GcnSpec.biasRelu
  have e : (i 1 : Fin 16) = q := Fin.ext hq
  rw [e]

/-- The index maps over the grid: the row block of the first operand moves with the output's row block, which is block t;
    the bias has the one block; no window moves along the columns. -/
theorem biasRelu_index_maps : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the layer function of the two arrays as the region finds them. -/
theorem biasRelu_flushed (c : Dev nD) (t : Fin cfg1.N) :
    (dat1 (F := Ideal) V c).flushed 2 t = ((cfg1.win 2).blk t).view.read (Elt Ideal) (Cert.GcnSpec.biasRelu 100000 16 (V c main_v43) (V c main_v44)) := by
  show (cfg1.win 2).cut (grid1.coords t) ((dat1 V c).after 2 t) = _
  rw [after1_2]
  unfold out1_2
  rw [View.canon_unit_zero biasRelu_origin]
  simp only [View.ld_unit_zero (S := S2000x16) biasRelu_origin, View.ld_unit_zero (S := S1x16) biasRelu_origin]
  obtain ⟨e0, e1, e2, e3, e4, e5⟩ := biasRelu_index_maps t
  funext j
  show k1_pay1 (F := Ideal) (iblk1 V c 0 t) (iblk1 V c 1 t) j
    = Cert.GcnSpec.biasRelu 100000 16 (V c main_v43) (V c main_v44) (((cfg1.win 2).blk t).view.emb j)
  refine biasRelu_at _ _ _ _ j _ ?_ (fun q => ?_) ?_
  · -- the row block at j is the array at the output block's index under j
    show V c main_v43 (((cfg1.win 0).blk t).view.emb j) = V c main_v43 (((cfg1.win 2).blk t).view.emb j)
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 16 + 1 * (j 1).val = win1_2.index t (1 : Fin 2) * 16 + 1 * (j 1).val; omega
  · -- the bias block is the whole bias row
    show V c main_v44 (((cfg1.win 1).blk t).view.emb (ix2 (0 : Fin 1) q)) = V c main_v44 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 16 + 1 * q.val = q.val; omega
  · -- same column
    show win1_2.index t (1 : Fin 2) * 16 + 1 * (j 1).val = (j 1).val; omega

/-- An index of the array is in point t's block iff each coordinate is in the block's range on its axis. -/
theorem biasRelu_mem_blk (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v45).slice (win1_2.rect t)).set ↔ _
  rw [View.set_slice_whole, Rect.mem_set_unit]
  exact Iff.rfl

/-- Every index of the array lies in some point's block: row r is in the block of point r / 2000. -/
theorem biasRelu_cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := rfl
  let t : Fin cfg1.N := ⟨(i 0).val / 2000, by rw [hN]; omega⟩
  obtain ⟨e0, e1, e2, e3, e4, e5⟩ := biasRelu_index_maps t
  have e4' : win1_2.index t (0 : Fin 2) = (i 0).val / 2000 := e4
  refine ⟨t, flush1_2 t, ?_⟩
  rw [biasRelu_mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 16 ≤ (i 1).val ∧ (i 1).val < win1_2.index t (1 : Fin 2) * 16 + 16; omega

/-- The array after the region: every row block is written once with its block of the layer function, and the blocks
    cover the array, so the array is the layer function of the two arrays the region found. -/
theorem final1 (c : Dev nD) :
    (dat1 (F := Ideal) V c).arrAt 2 cfg1.N = Cert.GcnSpec.biasRelu 100000 16 (V c main_v43) (V c main_v44) := by
  exact (dat1 (F := Ideal) V c).arrAt_eq_of_cover 2 _ (fun t _ => biasRelu_flushed V c t) biasRelu_cover

end Cert.KernelIdeal.RegionValue

end
-- ==== Proof.Region2.lean ====
import proofs.«139802_j73220602462645_1_alg».proof.Proof.Gen.KernelIdeal.Frame
import proofs.«139802_j73220602462645_1_alg».proof.Proof.Spec
import proofs.«139802_j73220602462645_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! # Region 2: the second dense layer, H · W₂, block of rows by block of rows -/

namespace Dense2

/-- The offset (0, 0) of a whole-block access, as the constant function. -/
theorem zeroOff2 : (![0, 0] : Fin 2 → Nat) = fun _ => 0 := funext fun a => by fin_cases a <;> rfl

/-- The dimension numbers of the 2000×16 by 16×2 product are the plain ones. -/
theorem dot2_eq_plain : dot_S2000x16_S16x2_S2000x2_1_0_0_1_n_n = DotDims.plain 2000 16 2 := rfl

/-- The body's payload at entry (p, q) of its block: Σ_k h (p, k) · w (k, q). The reshaping of the block to its own
    shape and the two changes of float format are the identity on the extended reals, and the product is accumulated
    into the zero array. -/
theorem pay2_apply (h : Vec Ideal S2000x16 .f32) (w : Vec Ideal S16x2 .f32) (p : Fin 2000) (q : Fin 2) :
    k2_pay1 (F := Ideal) h w (ix2 p q) = ∑ k : Fin 16, h (ix2 p k) * w (ix2 k q) := by
  unfold k2_pay1
  rw [dot2_eq_plain, shapeCast_self]
  exact PlainDot.matmul_zero_apply 2000 16 2 _ _ p q

/-- The index maps over the 50 grid points: the first operand's window and the output's window sit at
    block (t, 0), the second operand's window at block (0, 0). -/
theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The grid has 50 points. -/
theorem grid2_N : cfg2.N = 50 := by decide

/-- What point t writes back is block t of H · W₂. -/
theorem flushed2_eq (c : Dev nD) (t : Fin cfg2.N) :
    (dat2 (F := Ideal) V c).flushed 2 t
      = ((cfg2.win 2).blk t).view.read (Elt Ideal) (Cert.GcnSpec.dense 100000 16 2 (V c main_v45) (V c main_arg4)) := by
  show (cfg2.win 2).cut (grid2.coords t) ((dat2 V c).after 2 t) = _
  rw [after2_2]
  unfold out2_2
  rw [View.canon_unit_zero zeroOff2]
  simp only [View.ld_unit_zero (S := S2000x16) zeroOff2, View.ld_unit_zero (S := S16x2) zeroOff2]
  obtain ⟨e00, e01, e10, e11, e20, e21⟩ := idx2_facts t
  funext j
  obtain ⟨p, q, rfl⟩ : ∃ (p : Fin 2000) (q : Fin 2), j = ix2 p q := ⟨j 0, j 1, eq_ix2 j⟩
  show k2_pay1 (F := Ideal) (iblk2 V c 0 t) (iblk2 V c 1 t) (ix2 p q)
    = Cert.GcnSpec.dense 100000 16 2 (V c main_v45) (V c main_arg4) (((cfg2.win 2).blk t).view.emb (ix2 p q))
  rw [pay2_apply]
  unfold Cert.GcnSpec.dense
  refine Finset.sum_congr rfl fun k _ => ?_
  refine congrArg₂ (fun a b : EReal => a * b) ?_ ?_
  · show V c main_v45 (((cfg2.win 0).blk t).view.emb (ix2 p k)) = V c main_v45 _
    refine congrArg _ (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 16 + 1 * k.val = k.val; omega
  · show V c main_arg4 (((cfg2.win 1).blk t).view.emb (ix2 k q)) = V c main_arg4 _
    refine congrArg _ (funext fun a => Fin.ext ?_)
    match a with
    | ⟨0, _⟩ => show win2_1.index t (0 : Fin 2) * 16 + 1 * k.val = k.val; omega
    | ⟨1, _⟩ => show win2_1.index t (1 : Fin 2) * 2 + 1 * q.val = win2_2.index t (1 : Fin 2) * 2 + 1 * q.val; omega

/-- An index of the output array is in point t's block iff each coordinate is in the block's range on its axis. -/
theorem mem_blk2 (t : Fin cfg2.N) (i : S100000x2.Idx) :
    i ∈ ((cfg2.win 2).blk t).view.set ↔ ∀ a : Fin 2, win2_2.index t a * S2000x2.size a ≤ (i a).val ∧ (i a).val < win2_2.index t a * S2000x2.size a + S2000x2.size a := by
  show i ∈ ((View.whole main_v46).slice (win2_2.rect t)).set ↔ _
  rw [View.set_slice_whole, Rect.mem_set_unit]
  exact Iff.rfl

/-- The 50 row blocks tile the 100000 rows: row r lies in the block of point r / 2000. -/
theorem cover2 (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hlt : (i 0).val / 2000 < cfg2.N := lt_of_lt_of_eq (by omega : (i 0).val / 2000 < 50) grid2_N.symm
  refine ⟨⟨(i 0).val / 2000, hlt⟩, flush2_2 _, ?_⟩
  obtain ⟨-, -, -, -, e20, e21⟩ := idx2_facts ⟨(i 0).val / 2000, hlt⟩
  have e20' : win2_2.index ⟨(i 0).val / 2000, hlt⟩ (0 : Fin 2) = (i 0).val / 2000 := e20
  rw [mem_blk2]
  intro a
  match a with
  | ⟨0, _⟩ => show win2_2.index _ (0 : Fin 2) * 2000 ≤ (i 0).val ∧ (i 0).val < win2_2.index _ (0 : Fin 2) * 2000 + 2000; omega
  | ⟨1, _⟩ => show win2_2.index _ (1 : Fin 2) * 2 ≤ (i 1).val ∧ (i 1).val < win2_2.index _ (1 : Fin 2) * 2 + 2; omega

end Dense2

/-- The output array of region 2 after its 50 points is H · W₂. -/
theorem final2 (c : Dev nD) :
    (dat2 (F := Ideal) V c).arrAt 2 cfg2.N = Cert.GcnSpec.dense 100000 16 2 (V c main_v45) (V c main_arg4) :=
  (dat2 (F := Ideal) V c).arrAt_eq_of_cover 2 _ (fun t _ => Dense2.flushed2_eq V c t) Dense2.cover2

end Cert.KernelIdeal.RegionValue

end
-- ==== Proof.Region3.lean ====
import proofs.«139802_j73220602462645_1_alg».proof.Proof.Gen.KernelIdeal.Frame
import proofs.«139802_j73220602462645_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The origin of a rank-2 block, as the constant-zero offset. -/
theorem logSoftmax_origin : (![0, 0] : Fin 2 → Nat) = fun _ => 0 := funext fun a => by fin_cases a <;> rfl

section Layout
variable {α : Type}

/-- A vector of length a cast to a column [a, 1] reads, at (i, 0), the vector at i. -/
theorem logSoftmax_column_of_vector {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] laid along b columns reads, at (p, c), the column at (p, 0). -/
theorem logSoftmax_column_along_columns {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index a row's reduction visits at column q of row p is (p, q). -/
theorem logSoftmax_lift_row (p : Fin 2000) (q : Fin 2) : (reduces_S2000x2_S2000).lift (ix1 p) q = ix2 p q := by
  funext a; apply Fin.ext
  match a with
  | ⟨0, _⟩ => rfl
  | ⟨1, _⟩ => rfl

/-- The maximum over the columns of a 2000 × 2 array, started from −∞, at row p is the row maximum of row p. -/
theorem logSoftmax_rowMax_read (src : FVec Ideal S2000x2 .f32) (hφ : FKind.Formats .f32)
    (hacc : (0xFF800000#32 : BitVec 32) = 0xFF800000#32) (p : Fin 2000) :
    multiReduction (F := Ideal) .maximumf [1] S2000 src 0xFF800000#32 reduces_S2000x2_S2000 hφ hacc (ix1 p)
      = Cert.GcnSpec.rowMax 2 (fun q => src (ix2 p q)) := by
  refine (Ideal.multiReduction_maximumf_single src 0xFF800000#32 reduces_S2000x2_S2000 hφ hacc (ix1 p)).trans ?_
  unfold Cert.GcnSpec.rowMax
  have e : (src ∘ (reduces_S2000x2_S2000).lift (ix1 p)) = fun q : Fin 2 => src (ix2 p q) :=
    funext fun q => congrArg src (logSoftmax_lift_row p q)
  rw [e]
  rfl

/-- The sum over the columns of a 2000 × 2 array at row p is the sum of row p's two entries. -/
theorem logSoftmax_rowSum_read (src : FVec Ideal S2000x2 .f32) (hφ : FKind.Formats .f32)
    (hacc : (0x00000000#32 : BitVec 32) = 0x00000000#32) (p : Fin 2000) :
    multiReduction (F := Ideal) .add [1] S2000 src 0x00000000#32 reduces_S2000x2_S2000 hφ hacc (ix1 p)
      = ∑ q : Fin 2, src (ix2 p q) := by
  refine (Ideal.multiReduction_add_single src 0x00000000#32 reduces_S2000x2_S2000 hφ hacc (ix1 p)).trans ?_
  exact Finset.sum_congr rfl fun q _ => congrArg src (logSoftmax_lift_row p q)

/-- Row p of a block with the bias row added: the values row p's log-softmax is taken over. -/
def logSoftmax_biasedRow (x0 : Vec Ideal S2000x2 .f32) (x1 : Vec Ideal S1x2 .f32) (p : Fin 2000) (q : Fin 2) : EReal :=
  x0 (ix2 p q) + x1 (ix2 (0 : Fin 1) q)

/-- The body's value at row p, column q of a block: with v the row p of the block plus the bias row and mx its maximum
    (from −∞), the entry v q − mx less the logarithm of the sum over the row of exp (v q' − mx). The maximum and the sum
    are taken along the columns, kept as a column, and laid back along the two columns. -/
theorem logSoftmax_pay (x0 : Vec Ideal S2000x2 .f32) (x1 : Vec Ideal S1x2 .f32) (p : Fin 2000) (q : Fin 2) :
    k3_pay1 (F := Ideal) x0 x1 (ix2 p q)
      = (logSoftmax_biasedRow x0 x1 p q - Cert.GcnSpec.rowMax 2 (logSoftmax_biasedRow x0 x1 p))
        - Ideal.log (∑ q' : Fin 2, Ideal.exp (logSoftmax_biasedRow x0 x1 p q' - Cert.GcnSpec.rowMax 2 (logSoftmax_biasedRow x0 x1 p))) := by
  unfold k3_pay1
  rw [shapeCast_self, shapeCast_self]
  generalize hv5 : (addf (x0 : FVec Ideal S2000x2 .f32) (broadcastTo S2000x2 (x1 : FVec Ideal S1x2 .f32) broadcasts_S1x2_S2000x2) : FVec Ideal S2000x2 .f32) = v5
  have h5 : ∀ (p : Fin 2000) (q : Fin 2), v5 (ix2 p q) = logSoftmax_biasedRow x0 x1 p q := by
    intro p q; rw [← hv5, addf_apply, broadcastTo_1b_ab_apply]; rfl
  -- the row maximum, laid along the two columns
  generalize hv8 : (broadcastTo S2000x2 (shapeCast S2000x1 (multiReduction (F := Ideal) .maximumf [1] S2000 v5 0xFF800000#32 reduces_S2000x2_S2000 (.inl rfl) rfl) shapeCasts_S2000_S2000x1) broadcasts_S2000x1_S2000x2 : FVec Ideal S2000x2 .f32) = v8
  have h8 : ∀ (p : Fin 2000) (q : Fin 2), v8 (ix2 p q) = Cert.GcnSpec.rowMax 2 (logSoftmax_biasedRow x0 x1 p) := by
    intro p q
    rw [← hv8, logSoftmax_column_along_columns, logSoftmax_column_of_vector, logSoftmax_rowMax_read]
    exact congrArg _ (funext fun q' => h5 p q')
  -- the row shifted by its maximum
  generalize hv9 : (subf v5 v8 : FVec Ideal S2000x2 .f32) = v9
  have h9 : ∀ (p : Fin 2000) (q : Fin 2), v9 (ix2 p q) = logSoftmax_biasedRow x0 x1 p q - Cert.GcnSpec.rowMax 2 (logSoftmax_biasedRow x0 x1 p) := by
    intro p q; rw [← hv9, subf_apply, h5, h8]
  -- the logarithm of the row's sum of exponentials, laid along the two columns
  generalize hv14 : (broadcastTo S2000x2 (log (shapeCast S2000x1 (multiReduction (F := Ideal) .add [1] S2000 (exp v9) 0x00000000#32 reduces_S2000x2_S2000 (.inl rfl) rfl) shapeCasts_S2000_S2000x1)) broadcasts_S2000x1_S2000x2 : FVec Ideal S2000x2 .f32) = v14
  have h14 : ∀ (p : Fin 2000) (q : Fin 2), v14 (ix2 p q) = Ideal.log (∑ q' : Fin 2, Ideal.exp (v9 (ix2 p q'))) := by
    intro p q
    rw [← hv14, logSoftmax_column_along_columns]
    show Ideal.log (shapeCast S2000x1 _ shapeCasts_S2000_S2000x1 (ix2 p (0 : Fin 1))) = _
    rw [logSoftmax_column_of_vector, logSoftmax_rowSum_read]
    rfl
  rw [subf_apply, h9, h14]
  simp only [h9]

/-- If row (j 0) of the row block is row (i 0) of the array, the bias block is the bias row, and j and i lie in the same
    column, then the body's value at j is the layer function at i. -/
theorem logSoftmax_at (A : FVec Ideal ⟨2, ![100000, 2]⟩ .f32) (b : FVec Ideal ⟨2, ![1, 2]⟩ .f32)
    (x0 : Vec Ideal S2000x2 .f32) (x1 : Vec Ideal S1x2 .f32) (j : S2000x2.Idx) (i : S100000x2.Idx)
    (h0 : ∀ q : Fin 2, x0 (ix2 (j 0 : Fin 2000) q) = A (ix2 (i 0 : Fin 100000) q))
    (h1 : ∀ q : Fin 2, x1 (ix2 (0 : Fin 1) q) = b (ix2 (0 : Fin 1) q)) (hq : (i 1).val = (j 1).val) :
    k3_pay1 (F := Ideal) x0 x1 j = Cert.GcnSpec.biasLogSoftmax 100000 2 A b i := by
  obtain ⟨p, q, rfl⟩ : ∃ (p : Fin 2000) (q : Fin 2), j = ix2 p q := ⟨j 0, j 1, eq_ix2 j⟩
  have h0' : ∀ q' : Fin 2, x0 (ix2 p q') = A (ix2 (i 0 : Fin 100000) q') := h0
  have hrow : logSoftmax_biasedRow x0 x1 p = Cert.GcnSpec.biased 100000 2 A b (i 0 : Fin 100000) := by
    funext q'; unfold logSoftmax_biasedRow Cert.GcnSpec.biased; rw [h0' q', h1 q']
  have e : (i 1 : Fin 2) = q := Fin.ext hq
  rw [logSoftmax_pay, hrow]
  unfold Cert.GcnSpec.biasLogSoftmax
  rw [e]

/-- The index maps over the grid: the row block of the first operand moves with the output's row block, which is block t;
    the bias has the one block; no window moves along the columns. -/
theorem logSoftmax_index_maps : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the layer function of the two arrays as the region finds them. -/
theorem logSoftmax_flushed (c : Dev nD) (t : Fin cfg3.N) :
    (dat3 (F := Ideal) V c).flushed 2 t = ((cfg3.win 2).blk t).view.read (Elt Ideal) (Cert.GcnSpec.biasLogSoftmax 100000 2 (V c main_v59) (V c main_v60)) := by
  show (cfg3.win 2).cut (grid3.coords t) ((dat3 V c).after 2 t) = _
  rw [after3_2]
  unfold out3_2
  rw [View.canon_unit_zero logSoftmax_origin]
  simp only [View.ld_unit_zero (S := S2000x2) logSoftmax_origin, View.ld_unit_zero (S := S1x2) logSoftmax_origin]
  obtain ⟨e0, e1, e2, e3, e4, e5⟩ := logSoftmax_index_maps t
  funext j
  show k3_pay1 (F := Ideal) (iblk3 V c 0 t) (iblk3 V c 1 t) j
    = Cert.GcnSpec.biasLogSoftmax 100000 2 (V c main_v59) (V c main_v60) (((cfg3.win 2).blk t).view.emb j)
  refine logSoftmax_at _ _ _ _ j _ (fun q => ?_) (fun q => ?_) ?_
  · -- row (j 0) of the row block is the array's row under the output block's row (j 0)
    show V c main_v59 (((cfg3.win 0).blk t).view.emb (ix2 (j 0 : Fin 2000) q))
      = V c main_v59 (ix2 ((((cfg3.win 2).blk t).view.emb j) 0 : Fin 100000) q)
    refine congrArg _ (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 2 + 1 * q.val = q.val; omega
  · -- the bias block is the whole bias row
    show V c main_v60 (((cfg3.win 1).blk t).view.emb (ix2 (0 : Fin 1) q)) = V c main_v60 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 2 + 1 * q.val = q.val; omega
  · -- same column
    show win3_2.index t (1 : Fin 2) * 2 + 1 * (j 1).val = (j 1).val; omega

/-- An index of the array is in point t's block iff each coordinate is in the block's range on its axis. -/
theorem logSoftmax_mem_blk (t : Fin cfg3.N) (i : S100000x2.Idx) :
    i ∈ ((cfg3.win 2).blk t).view.set ↔ ∀ a : Fin 2, win3_2.index t a * S2000x2.size a ≤ (i a).val ∧ (i a).val < win3_2.index t a * S2000x2.size a + S2000x2.size a := by
  show i ∈ ((View.whole main_v61).slice (win3_2.rect t)).set ↔ _
  rw [View.set_slice_whole, Rect.mem_set_unit]
  exact Iff.rfl

/-- Every index of the array lies in some point's block: row r is in the block of point r / 2000. -/
theorem logSoftmax_cover (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 50 := rfl
  let t : Fin cfg3.N := ⟨(i 0).val / 2000, by rw [hN]; omega⟩
  obtain ⟨e0, e1, e2, e3, e4, e5⟩ := logSoftmax_index_maps t
  have e4' : win3_2.index t (0 : Fin 2) = (i 0).val / 2000 := e4
  refine ⟨t, flush3_2 t, ?_⟩
  rw [logSoftmax_mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 2 ≤ (i 1).val ∧ (i 1).val < win3_2.index t (1 : Fin 2) * 2 + 2; omega

/-- The array after the region: every row block is written once with its block of the layer function, and the blocks
    cover the array, so the array is the layer function of the two arrays the region found. -/
theorem final3 (c : Dev nD) :
    (dat3 (F := Ideal) V c).arrAt 2 cfg3.N = Cert.GcnSpec.biasLogSoftmax 100000 2 (V c main_v59) (V c main_v60) := by
  exact (dat3 (F := Ideal) V c).arrAt_eq_of_cover 2 _ (fun t _ => logSoftmax_flushed V c t) logSoftmax_cover

end Cert.KernelIdeal.RegionValue

end
-- ==== Proof.WholeSpec.lean ====
/-
  The two-layer graph convolution as ONE function of its six arguments on the extended reals, in the form both
  programs are read to: the dense layers as plain sums (`GcnSpec.dense`), the bias-and-maximum and the
  bias-and-log-softmax index by index (`GcnSpec.biasRelu`, `GcnSpec.biasLogSoftmax`) over each bias laid out as a one-row
  array, and between them the message-passing rounds `Chain.agg16`, `Chain.agg2` over the edge list's sources, targets
  and weights, which both programs compute by the same host operations and which are therefore never opened.
-/
import proofs.«139802_j73220602462645_1_alg».proof.Proof.RefChain
import proofs.«139802_j73220602462645_1_alg».proof.Proof.Spec

noncomputable section

namespace Cert.ReferenceIdeal.Chain

open Cert.ReferenceIdeal Cert.ReferenceIdeal.Gen Idealize.ShloMosaic

/-- The result of the two layers; `h16` and `h2` say that a 16-vector and a 2-vector reshape to one-row arrays. -/
def wholeSpec (x : FVec Ideal S100000x128 .f32) (E : IVec S2x3200000 32) (W1 : FVec Ideal S128x16 .f32) (b1 : FVec Ideal S16 .f32)
    (W2 : FVec Ideal S16x2 .f32) (b2 : FVec Ideal S2 .f32) (h16 : S16.ShapeCasts S1x16) (h2 : S2.ShapeCasts S1x2) :
    FVec Ideal S100000x2 .f32 :=
  Cert.GcnSpec.biasLogSoftmax 100000 2
    (agg2 (F := Ideal) (srcOf E) (dstOf E) (norm (F := Ideal) (srcOf E) (dstOf E))
      (Cert.GcnSpec.dense 100000 16 2
        (Cert.GcnSpec.biasRelu 100000 16
          (agg16 (F := Ideal) (srcOf E) (dstOf E) (norm (F := Ideal) (srcOf E) (dstOf E)) (Cert.GcnSpec.dense 100000 128 16 x W1))
          (shapeCast S1x16 b1 h16))
        W2))
    (shapeCast S1x2 b2 h2)

end Cert.ReferenceIdeal.Chain

end
-- ==== Proof.KValue.lean ====
/-
  The kernel's result on the extended reals: region by region, each region's output array is the specification's
  function of the region's operand arrays (the four region modules), each operand array is what the host stretch before
  it, or the region before it, left there (the boundary module), and so the result's buffer after the last region is
  `Chain.wholeSpec` of the six argument arrays.
-/
import proofs.«139802_j73220602462645_1_alg».proof.Proof.KChain
import proofs.«139802_j73220602462645_1_alg».proof.Proof.Region0
import proofs.«139802_j73220602462645_1_alg».proof.Proof.Region1
import proofs.«139802_j73220602462645_1_alg».proof.Proof.Region2
import proofs.«139802_j73220602462645_1_alg».proof.Proof.Region3
import proofs.«139802_j73220602462645_1_alg».proof.Proof.WholeSpec

noncomputable section

namespace Cert.KernelIdeal.KValue

open Cert.KernelIdeal Cert.KernelIdeal.Gen Idealize.ShloMosaic Idealize.ShloMosaic.TcCoe Idealize.SL.Sem
open Cert.ReferenceIdeal (Chain.srcOf Chain.dstOf Chain.norm Chain.agg16 Chain.agg2 Chain.wholeSpec)
open Cert (GcnSpec.dense GcnSpec.biasRelu GcnSpec.biasLogSoftmax)

variable (m : (ℓ : Loc nD τ sig) → Buf (Elt Ideal) ℓ) (ρ : Dev nD → PrngReg)

/-- Region 0 leaves the first dense layer of the node features. -/
theorem dense1_out (c : Dev nD) : W4 m ρ c (Proc.devRef .tc main_v30) = GcnSpec.dense 100000 128 16 (m ((c : Thread nD τ).loc main_arg0)) (m ((c : Thread nD τ).loc main_arg2)) := by
  have e := (W4_arr m ρ c 2).trans (RegionValue.final0 (V3 m ρ) c)
  have a0 : V3 m ρ c main_arg0 = (m ((c : Thread nD τ).loc main_arg0)) := KChain.arg0_3 m ρ c
  have a2 : V3 m ρ c main_arg2 = (m ((c : Thread nD τ).loc main_arg2)) := KChain.arg2_3 m ρ c
  rw [a0, a2] at e
  exact e

/-- The host then passes it along the edges once. -/
theorem msg1_out (c : Dev nD) : W5 m ρ c (Proc.devRef .tc main_v43) = Chain.agg16 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 128 16 (m ((c : Thread nD τ).loc main_arg0)) (m ((c : Thread nD τ).loc main_arg2))) := by
  rw [KChain.agg5 m ρ c, KChain.src4 m ρ c, KChain.dst4 m ρ c, KChain.nrm4 m ρ c, dense1_out m ρ c]

/-- The first bias as a one-row array. -/
theorem bias1_out (c : Dev nD) : W5 m ρ c (Proc.devRef .tc main_v44) = shapeCast S1x16 (m ((c : Thread nD τ).loc main_arg3)) shapeCasts_S16_S1x16 := by
  rw [KChain.bias5 m ρ c, KChain.arg3_4 m ρ c]

/-- Region 1 adds the bias and takes the maximum with zero. -/
theorem relu_out (c : Dev nD) : W6 m ρ c (Proc.devRef .tc main_v45) = GcnSpec.biasRelu 100000 16 (Chain.agg16 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 128 16 (m ((c : Thread nD τ).loc main_arg0)) (m ((c : Thread nD τ).loc main_arg2)))) (shapeCast S1x16 (m ((c : Thread nD τ).loc main_arg3)) shapeCasts_S16_S1x16) := by
  have e := (W6_arr m ρ c 2).trans (RegionValue.final1 (V5 m ρ) c)
  have x0 : V5 m ρ c main_v43 = (Chain.agg16 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 128 16 (m ((c : Thread nD τ).loc main_arg0)) (m ((c : Thread nD τ).loc main_arg2)))) := msg1_out m ρ c
  have x1 : V5 m ρ c main_v44 = (shapeCast S1x16 (m ((c : Thread nD τ).loc main_arg3)) shapeCasts_S16_S1x16) := bias1_out m ρ c
  rw [x0, x1] at e
  exact e

/-- Region 2 leaves the second dense layer. -/
theorem dense2_out (c : Dev nD) : W7 m ρ c (Proc.devRef .tc main_v46) = GcnSpec.dense 100000 16 2 (GcnSpec.biasRelu 100000 16 (Chain.agg16 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 128 16 (m ((c : Thread nD τ).loc main_arg0)) (m ((c : Thread nD τ).loc main_arg2)))) (shapeCast S1x16 (m ((c : Thread nD τ).loc main_arg3)) shapeCasts_S16_S1x16)) (m ((c : Thread nD τ).loc main_arg4)) := by
  have e := (W7_arr m ρ c 2).trans (RegionValue.final2 (V6 m ρ) c)
  have x0 : V6 m ρ c main_v45 = (GcnSpec.biasRelu 100000 16 (Chain.agg16 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 128 16 (m ((c : Thread nD τ).loc main_arg0)) (m ((c : Thread nD τ).loc main_arg2)))) (shapeCast S1x16 (m ((c : Thread nD τ).loc main_arg3)) shapeCasts_S16_S1x16)) := relu_out m ρ c
  have x1 : V6 m ρ c main_arg4 = (m ((c : Thread nD τ).loc main_arg4)) := KChain.arg4_6 m ρ c
  rw [x0, x1] at e
  exact e

/-- The host passes it along the edges once more. -/
theorem msg2_out (c : Dev nD) : W8 m ρ c (Proc.devRef .tc main_v59) = Chain.agg2 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 16 2 (GcnSpec.biasRelu 100000 16 (Chain.agg16 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 128 16 (m ((c : Thread nD τ).loc main_arg0)) (m ((c : Thread nD τ).loc main_arg2)))) (shapeCast S1x16 (m ((c : Thread nD τ).loc main_arg3)) shapeCasts_S16_S1x16)) (m ((c : Thread nD τ).loc main_arg4))) := by
  rw [KChain.agg8 m ρ c, KChain.src7 m ρ c, KChain.dst7 m ρ c, KChain.nrm7 m ρ c, dense2_out m ρ c]

/-- The second bias as a one-row array. -/
theorem bias2_out (c : Dev nD) : W8 m ρ c (Proc.devRef .tc main_v60) = shapeCast S1x2 (m ((c : Thread nD τ).loc main_arg5)) shapeCasts_S2_S1x2 := by
  rw [KChain.bias8 m ρ c, KChain.arg5_7 m ρ c]

/-- Region 3 adds the bias and takes the row-wise log-softmax: the result's buffer holds the specification's function
    of the six argument arrays. -/
theorem result_out (c : Dev nD) : W9 m ρ c (Proc.devRef .tc main_v61)
    = Chain.wholeSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) shapeCasts_S16_S1x16 shapeCasts_S2_S1x2 := by
  have e := (W9_arr m ρ c 2).trans (RegionValue.final3 (V8 m ρ) c)
  have x0 : V8 m ρ c main_v59 = (Chain.agg2 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 16 2 (GcnSpec.biasRelu 100000 16 (Chain.agg16 (F := Ideal) (Chain.srcOf (m ((c : Thread nD τ).loc main_arg1))) (Chain.dstOf (m ((c : Thread nD τ).loc main_arg1))) (Chain.norm (F := Ideal) (Chain.srcOf (m ((c : Thread nD τ).loc main_arg1))) (Chain.dstOf (m ((c : Thread nD τ).loc main_arg1)))) (GcnSpec.dense 100000 128 16 (m ((c : Thread nD τ).loc main_arg0)) (m ((c : Thread nD τ).loc main_arg2)))) (shapeCast S1x16 (m ((c : Thread nD τ).loc main_arg3)) shapeCasts_S16_S1x16)) (m ((c : Thread nD τ).loc main_arg4)))) := msg2_out m ρ c
  have x1 : V8 m ρ c main_v60 = (shapeCast S1x2 (m ((c : Thread nD τ).loc main_arg5)) shapeCasts_S2_S1x2) := bias2_out m ρ c
  rw [x0, x1] at e
  exact e

end Cert.KernelIdeal.KValue

end
-- ==== Proof.RefWhole.lean ====
/-
  The reference's result, as its run states it, is the composition `Chain.whole` of its six arguments: the run's long
  term and the composition are the same tree of operations, the composition only naming the subtrees.
-/
import proofs.«139802_j73220602462645_1_alg».proof.Proof.RefRun
import proofs.«139802_j73220602462645_1_alg».proof.Proof.RefChain

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- The run's term for the result is `Chain.whole` of the argument arrays. -/
theorem res_eq (m : (ℓ : Loc nD τ sig) → Buf (Elt F) ℓ) (c : Dev nD) :
    ValueP.res_main_v88 m c
      = Chain.whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold ValueP.res_main_v88
  rfl

end Cert.ReferenceIdeal.RefValue

end
-- ==== Proof.RefLsm.lean ====
/-
  The reference's row-wise log-softmax of rows with a bias added, read to the specification's form on the extended
  reals: the row maximum, which the reference takes from −∞ and then once more against −∞, is the fold of `max` from −∞
  over the row; the sum of the exponentials starts from zero; both are broadcast back along the row unchanged.
-/
import proofs.«139802_j73220602462645_1_alg».proof.Proof.WholeSpec
import Idealize.ShloMosaic.Lib.KernelVsHost
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLsm

open Cert.ReferenceIdeal Cert.ReferenceIdeal.Gen Idealize.ShloMosaic Idealize.ShloMosaic.ValueIdx

section Layout
variable {α : Type}

/-- A vector of length a laid out as a column [a, 1] reads, at (p, 0), the vector at p. -/
theorem column_of_vector_apply {a : ℕ} (hbc : (⟨1, ![a]⟩ : Shape).BroadcastsInDim ⟨2, ![a, 1]⟩ ![0])
    (y : (⟨1, ![a]⟩ : Shape).Idx → α) (p : Fin a) (u : Fin 1) :
    broadcastInDim ⟨2, ![a, 1]⟩ ![0] hbc y (ix2 p u) = y (ix1 p) := by
  refine broadcastInDim_apply ![0] hbc y (ix2 p u) (ix1 p) ?_
  intro ax
  match ax with
  | ⟨0, _⟩ =>
    show p.val = if a = 1 then 0 else p.val
    split
    · have := p.isLt; omega
    · rfl

/-- A column [a, 1] laid along b columns reads, at (p, c), the column at (p, 0). -/
theorem column_along_columns_apply {a b : ℕ} (hbc : (⟨2, ![a, 1]⟩ : Shape).BroadcastsInDim ⟨2, ![a, b]⟩ ![0, 1])
    (y : (⟨2, ![a, 1]⟩ : Shape).Idx → α) (p : Fin a) (c : Fin b) :
    broadcastInDim ⟨2, ![a, b]⟩ ![0, 1] hbc y (ix2 p c) = y (ix2 p (0 : Fin 1)) := by
  refine broadcastInDim_apply ![0, 1] hbc y (ix2 p c) (ix2 p (0 : Fin 1)) ?_
  intro ax
  match ax with
  | ⟨0, _⟩ =>
    show p.val = if a = 1 then 0 else p.val
    split
    · have := p.isLt; omega
    · rfl
  | ⟨1, _⟩ => rfl

/-- A vector of length n laid out as a row [1, n] reads, at (0, t), the vector at t. -/
theorem row_of_vector_apply {n : ℕ} (hbc : (⟨1, ![n]⟩ : Shape).BroadcastsInDim ⟨2, ![1, n]⟩ ![1])
    (y : (⟨1, ![n]⟩ : Shape).Idx → α) (u : Fin 1) (t : Fin n) :
    broadcastInDim ⟨2, ![1, n]⟩ ![1] hbc y (ix2 u t) = y (ix1 t) := by
  refine broadcastInDim_apply ![1] hbc y (ix2 u t) (ix1 t) ?_
  intro ax
  match ax with
  | ⟨0, _⟩ =>
    show t.val = if n = 1 then 0 else t.val
    split
    · have := t.isLt; omega
    · rfl

end Layout

/-- The bias laid along every row reads, at (p, q), the bias at q. -/
theorem bias2_apply (b : FVec Ideal S2 .f32) (p : Fin 100000) (q : Fin 2) :
    Chain.bias2 (F := Ideal) b (ix2 p q) = b (ix1 q) := by
  unfold Chain.bias2
  rw [broadcastInDim_oneRow_apply, row_of_vector_apply]

/-- The array with the bias added is, row by row, the specification's biased row over the bias as a one-row array. -/
theorem biased_apply (A : FVec Ideal S100000x2 .f32) (b : FVec Ideal S2 .f32) (h : S2.ShapeCasts S1x2) (p : Fin 100000) (q : Fin 2) :
    addf A (Chain.bias2 (F := Ideal) b) (ix2 p q) = Cert.GcnSpec.biased 100000 2 A (shapeCast S1x2 b h) p q := by
  rw [addf_apply, bias2_apply]
  unfold Cert.GcnSpec.biased
  rw [shapeCast_a_1a_apply]

/-- The reduction along the columns, at the same shapes: the fact that names the index a row's reduction visits. -/
theorem reduces_columns : S100000x2.Reduces [1] S100000 := by decide

/-- The index a row's reduction visits at column q of row p is (p, q). -/
theorem lift_row (p : Fin 100000) (q : Fin 2) : reduces_columns.lift (ix1 p) q = ix2 p q := by
  funext a; apply Fin.ext
  match a with
  | ⟨0, _⟩ => rfl
  | ⟨1, _⟩ => rfl

/-- The reference's row maximum, broadcast back, at (p, q): the fold of max from −∞ over row p. The second maximum
    against −∞ changes nothing, −∞ being below the fold that starts from it. -/
theorem rowMaxB_apply (B : FVec Ideal S100000x2 .f32) (p : Fin 100000) (q : Fin 2) :
    Chain.rowMaxB (F := Ideal) B (ix2 p q) = Cert.GcnSpec.rowMax 2 (fun q' => B (ix2 p q')) := by
  unfold Chain.rowMaxB
  rw [column_along_columns_apply, column_of_vector_apply, maximumf_apply, broadcastInDim_scalar_apply, constant_apply,
    Host.reduce_eq_fold_single FloatOps.maximumf B _ reducesTo_S100000x2_S100000_d1 reduces_columns h_S_ (ix1 p)]
  have e : (B ∘ reduces_columns.lift (ix1 p)) = fun q' : Fin 2 => B (ix2 p q') :=
    funext fun q' => congrArg B (lift_row p q')
  rw [e]
  unfold Cert.GcnSpec.rowMax
  show max (Ideal.ofBits .f32 0xFF800000#32) (Finset.univ.fold max (Ideal.ofBits .f32 0xFF800000#32) fun q' : Fin 2 => B (ix2 p q')) = _
  exact max_eq_right ((Finset.le_fold_max _).2 (Or.inl le_rfl))

/-- The reference's sum along the columns, started from zero, at row p: the sum of row p's two entries. -/
theorem rowSum_apply (X : FVec Ideal S100000x2 .f32) (p : Fin 100000) :
    Host.reduceAdd X (constant (F := Ideal) S_ .f32 0x00000000#32) reducesTo_S100000x2_S100000_d1 h_S_ (ix1 p)
      = ∑ q : Fin 2, X (ix2 p q) := by
  rw [hostReduceAdd_apply, Ideal.hostReduceAdd_single reducesTo_S100000x2_S100000_d1 reduces_columns, constant_apply,
    Ideal.ofBits_zero_f32, zero_add]
  exact Finset.sum_congr rfl fun q _ => congrArg X (lift_row p q)

/-- The host's exponential and logarithm at an index are the extended reals' exponential and logarithm of the element. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- Bias along every row, then the row-wise log-softmax. -/
theorem lsm_eq (A : FVec Ideal S100000x2 .f32) (b : FVec Ideal S2 .f32) (h : S2.ShapeCasts S1x2) :
    Chain.lsm (F := Ideal) (addf A (Chain.bias2 (F := Ideal) b)) = Cert.GcnSpec.biasLogSoftmax 100000 2 A (shapeCast S1x2 b h) := by
  funext i
  obtain ⟨p, q, rfl⟩ : ∃ (p : Fin 100000) (q : Fin 2), i = ix2 p q := ⟨i 0, i 1, eq_ix2 i⟩
  -- the array with the bias added, named: row p of it is the specification's biased row p
  generalize hB : (addf A (Chain.bias2 (F := Ideal) b) : FVec Ideal S100000x2 .f32) = B
  have hBv : ∀ (p : Fin 100000) (q : Fin 2), B (ix2 p q) = Cert.GcnSpec.biased 100000 2 A (shapeCast S1x2 b h) p q := by
    intro p q; rw [← hB]; exact biased_apply A b h p q
  have hrow : (fun q' : Fin 2 => B (ix2 p q')) = Cert.GcnSpec.biased 100000 2 A (shapeCast S1x2 b h) p :=
    funext fun q' => hBv p q'
  -- the exponentials of the shifted row
  have hexp : ∀ q' : Fin 2, Host.exp (subf B (Chain.rowMaxB (F := Ideal) B)) (ix2 p q')
      = Ideal.exp (B (ix2 p q') - Cert.GcnSpec.rowMax 2 (fun q'' : Fin 2 => B (ix2 p q''))) := by
    intro q'
    rw [hostExp_apply, subf_apply, rowMaxB_apply]
  unfold Chain.lsm
  rw [subf_apply, subf_apply, rowMaxB_apply, column_along_columns_apply, hostLog_apply, column_of_vector_apply, rowSum_apply]
  simp only [hexp]
  rw [hrow]
  simp only [hBv]
  rfl

end Cert.ReferenceIdeal.RefLsm

end
-- ==== Proof.RefOps.lean ====
/-
  The reference's dense pieces read to the specification's forms, on the extended reals: its two `dot_general`s are the
  plain sums `GcnSpec.dense`; its bias laid along every row, added, and the maximum with the zero array is
  `GcnSpec.biasRelu` over the bias as a one-row array; and its log-softmax of the biased rows is `GcnSpec.biasLogSoftmax` (proved beside this module).
  With these, the reference's whole composition `Chain.whole` is `Chain.wholeSpec`.
-/
import proofs.«139802_j73220602462645_1_alg».proof.Proof.WholeSpec
import proofs.«139802_j73220602462645_1_alg».proof.Proof.LibPlainDot
import proofs.«139802_j73220602462645_1_alg».proof.Proof.RefLsm
import Idealize.ShloMosaic.Lib.KernelVsHost
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefOps

open Cert.ReferenceIdeal Cert.ReferenceIdeal.Gen Idealize.ShloMosaic Idealize.ShloMosaic.ValueIdx

/-- The first layer's `dot_general` is the plain sum over the 128 input features. -/
theorem dense1_eq (X : FVec Ideal S100000x128 .f32) (W : FVec Ideal S128x16 .f32) :
    Host.dotGeneral dot_S100000x128_S128x16_S100000x16_1_0_0_1_n_n none X W = Cert.GcnSpec.dense 100000 128 16 X W := by
  -- the product with no accumulator is the product accumulated into the zero array; its dimension numbers are the plain ones
  rw [← matmul_zero_eq_dotGeneral]
  funext i
  obtain ⟨p, q, rfl⟩ : ∃ (p : Fin 100000) (q : Fin 16), i = ix2 p q := ⟨i 0, i 1, eq_ix2 i⟩
  have hd : dot_S100000x128_S128x16_S100000x16_1_0_0_1_n_n = DotDims.plain 100000 128 16 := rfl
  rw [hd]
  exact PlainDot.matmul_zero_apply 100000 128 16 X W p q

/-- The second layer's `dot_general` is the plain sum over the 16 hidden features. -/
theorem dense2_eq (X : FVec Ideal S100000x16 .f32) (W : FVec Ideal S16x2 .f32) :
    Host.dotGeneral dot_S100000x16_S16x2_S100000x2_1_0_0_1_n_n none X W = Cert.GcnSpec.dense 100000 16 2 X W := by
  rw [← matmul_zero_eq_dotGeneral]
  funext i
  obtain ⟨p, q, rfl⟩ : ∃ (p : Fin 100000) (q : Fin 2), i = ix2 p q := ⟨i 0, i 1, eq_ix2 i⟩
  have hd : dot_S100000x16_S16x2_S100000x2_1_0_0_1_n_n = DotDims.plain 100000 16 2 := rfl
  rw [hd]
  exact PlainDot.matmul_zero_apply 100000 16 2 X W p q

/-- Bias along every row, then the maximum with the zero array. -/
theorem relu_eq (A : FVec Ideal S100000x16 .f32) (b : FVec Ideal S16 .f32) (h : S16.ShapeCasts S1x16) :
    Chain.relu0 (F := Ideal) (addf A (Chain.bias16 (F := Ideal) b)) = Cert.GcnSpec.biasRelu 100000 16 A (shapeCast S1x16 b h) := by
  funext i
  obtain ⟨p, q, rfl⟩ : ∃ (p : Fin 100000) (q : Fin 16), i = ix2 p q := ⟨i 0, i 1, eq_ix2 i⟩
  -- the 16-vector laid along every row reads b q at (p, q): down the rows from its one-row form, which reads b q at (0, q)
  have hb : Chain.bias16 (F := Ideal) b (ix2 p q) = b (ix1 q) := by
    unfold Chain.bias16
    refine (broadcastInDim_oneRow_apply bcast_S1x16_S100000x16_0_1 _ p q).trans ?_
    refine broadcastInDim_apply ![1] bcast_S16_S1x16_1 b (ix2 (0 : Fin 1) q) (ix1 q) ?_
    intro a
    match a with
    | ⟨0, _⟩ => rfl
  -- the specification's one-row bias reads b q at (0, q) as well
  have hs : shapeCast S1x16 b h (ix2 (0 : Fin 1) q) = b (ix1 q) := shapeCast_a_1a_apply b h 0 q
  show max (A (ix2 p q) + Chain.bias16 (F := Ideal) b (ix2 p q))
      (broadcastInDim S100000x16 ![] bcast_S_S100000x16 (constant (F := Ideal) S_ .f32 0x00000000#32) (ix2 p q))
    = max (A (ix2 p q) + shapeCast S1x16 b h (ix2 (0 : Fin 1) q)) (Ideal.ofBits .f32 0x00000000#32)
  rw [hb, hs, broadcastInDim_scalar_apply]
  rfl

/-- The reference's composition is the specification's. -/
theorem whole_eq (x : FVec Ideal S100000x128 .f32) (E : IVec S2x3200000 32) (W1 : FVec Ideal S128x16 .f32) (b1 : FVec Ideal S16 .f32)
    (W2 : FVec Ideal S16x2 .f32) (b2 : FVec Ideal S2 .f32) (h16 : S16.ShapeCasts S1x16) (h2 : S2.ShapeCasts S1x2) :
    Chain.whole (F := Ideal) x E W1 b1 W2 b2 = Chain.wholeSpec x E W1 b1 W2 b2 h16 h2 := by
  unfold Chain.whole Chain.wholeSpec
  rw [dense1_eq, relu_eq _ _ h16, dense2_eq, RefLsm.lsm_eq _ _ h2]

end Cert.ReferenceIdeal.RefOps

end
-- ==== Proof.lean ====
/-
  A two-layer graph convolution on 100000 nodes and 3200000 edges: four tiled kernel calls (two dense layers as
  50 row blocks of 2000 each with bf16 operands and f32 accumulation, a bias-and-maximum, a bias-and-log-softmax) with
  the edge gather, scaling and scatter-add on the host between them, against the reference that does everything on the
  host. On the extended reals a change of float format is the identity and a matrix product is a plain sum, whatever the
  tiling, so both programs compute ONE function of the six arguments, `Chain.wholeSpec`:

    out = logsoftmax_rows (P (max (P (x · W1) + b1) 0 · W2) + b2),

  where P gathers each edge's source row, scales it by the edge's weight (the product of the inverse square roots of the
  in-degrees at its two ends, self loops included) and scatter-adds it at the edge's target. Both programs compute the
  sources, targets and weights and the two rounds of P by the same host operations, so P is carried as one named function
  and never opened; the dense layers, the bias-and-maximum and the log-softmax are compared index by index, and no law of
  arithmetic beyond 0 + a = a and max (−∞) a = a is used, so the precondition (finite inputs) is not opened.

  The frames of the two kernel programs are the generated ones; the reference's frame is its run with the result
  dropped; the ideal pass rewrote nothing, so `preserves` is trivial.
-/
import proofs.«139802_j73220602462645_1_alg».proof.Defs
import proofs.«139802_j73220602462645_1_alg».proof.Proof.Gen.Kernel
import proofs.«139802_j73220602462645_1_alg».proof.Proof.Gen.Kernel.Frame
import proofs.«139802_j73220602462645_1_alg».proof.Proof.Gen.KernelIdeal
import proofs.«139802_j73220602462645_1_alg».proof.Proof.Gen.KernelIdeal.Frame
import proofs.«139802_j73220602462645_1_alg».proof.Proof.Gen.ReferenceIdeal
import proofs.«139802_j73220602462645_1_alg».proof.Proof.Gen.Pre_finite_inputs
import proofs.«139802_j73220602462645_1_alg».proof.Proof.KRun
import proofs.«139802_j73220602462645_1_alg».proof.Proof.KValue
import proofs.«139802_j73220602462645_1_alg».proof.Proof.RefRun
import proofs.«139802_j73220602462645_1_alg».proof.Proof.RefWhole
import proofs.«139802_j73220602462645_1_alg».proof.Proof.RefOps
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at `Chain.wholeSpec` of the argument arrays, which agree. -/
theorem algebraic : Cert.algebraic_KernelIdeal_ReferenceIdeal := by
  intro m ρ m' ρ' _ hagree
  refine ⟨fun c => Cert.ReferenceIdeal.Chain.wholeSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      Cert.KernelIdeal.Gen.shapeCasts_S16_S1x16 Cert.KernelIdeal.Gen.shapeCasts_S2_S1x2, ?_, ?_⟩
  · exact (θ_run Cert.KernelIdeal.defs _ _).mono
      (fun r h c => ⟨(h c).1.trans (Cert.KernelIdeal.KValue.result_out m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq,
      Cert.ReferenceIdeal.RefOps.whole_eq _ _ _ _ _ _ Cert.KernelIdeal.Gen.shapeCasts_S16_S1x16 Cert.KernelIdeal.Gen.shapeCasts_S2_S1x2,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
